-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S_ : Shape := ⟨0, ![]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel

variable [Facts]

def fn {F : FTy → Type} [FloatOps F] (main_arg0 : FVec F S2x8x4096x64 .f32) (main_arg1 : FVec F S2x8x4096x64 .f32) (main_arg2 : FVec F S2x8x4096x64 .f32) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x8x4096x64 .f32 := Host.absf main_arg2
  let main_cst_2 : FVec F S_ .f32 := constant S_ .f32 0x7F800000#32
  let main_v10 : FVec F S2x8x4096x64 .f32 := broadcastInDim S2x8x4096x64 ![] bcast_S_S2x8x4096x64 main_cst_2
  let main_v11 : IVec S2x8x4096x64 1 := cmpf .olt main_v9 main_v10
  let main_c_3 : IVec S_ 1 := constantI S_ 1 1#1
  let main_v12 : IVec S_ 1 := (fun x v => Host.reduce IntOp.andi x v reducesTo_S2x8x4096x64_S_d0_1_2_3 h_S_) main_v11 main_c_3
  let main_v13 : IVec S_ 1 := andi main_v8 main_v12
  main_v13
-- ==== Kernel.lean ====
abbrev S2x8x4096x64 : Shape := ⟨4, ![2, 8, 4096, 64]⟩
abbrev S1x1x512x64 : Shape := ⟨4, ![1, 1, 512, 64]⟩
abbrev S1x1x4096x64 : Shape := ⟨4, ![1, 1, 4096, 64]⟩
abbrev S512x64 : Shape := ⟨2, ![512, 64]⟩
abbrev S4096x64 : Shape := ⟨2, ![4096, 64]⟩
abbrev S512x4096 : Shape := ⟨2, ![512, 4096]⟩

abbrev nBuf : Space → Nat
  | .hbm => 4
  | .vmem => 8
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S2x8x4096x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x512x64, .f32⟩
  | .local _ .vmem, ⟨7, _⟩ => ⟨S1x1x512x64, .f32⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  shapeCasts_S512x64_S1x1x512x64 : S512x64.ShapeCasts S1x1x512x64
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x8x4096x64.size a
  hwx0_0 : ∀ i : grid0.Coords, EltTy.bits .f32 = 32 ∨ (Rect.block (s := S2x8x4096x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S2x8x4096x64.size a
  hwx0_1 : ∀ i : grid0.Coords, EltTy.bits .f32 = 32 ∨ (Rect.block (s := S2x8x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S2x8x4096x64.size a
  hwx0_2 : ∀ i : grid0.Coords, EltTy.bits .f32 = 32 ∨ (Rect.block (s := S2x8x4096x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x8x4096x64.size a
  hwx0_3 : ∀ i : grid0.Coords, EltTy.bits .f32 = 32 ∨ (Rect.block (s := S2x8x4096x64) S1x1x512x64.size (cc0_transform_3 i) (hinb0_3 i)).WholeWords (EltTy.packing .f32)

variable [Facts₀]

def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x4096x64 : Shape := ⟨4, ![2, 8, 4096, 64]⟩
abbrev S2x8x4096x4096 : Shape := ⟨4, ![2, 8, 4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S2x8x4096x4096, .f32⟩
  | .hbm, ⟨4, _⟩ => ⟨S_, .f32⟩
  | .hbm, ⟨5, _⟩ => ⟨S2x8x4096x4096, .f32⟩
  | .hbm, ⟨6, _⟩ => ⟨S2x8x4096x4096, .f32⟩
  | .hbm, ⟨7, _⟩ => ⟨S_, .f32⟩
  | .hbm, ⟨8, _⟩ => ⟨S2x8x4096x4096, .f32⟩
  | .hbm, ⟨9, _⟩ => ⟨S2x8x4096x4096, .f32⟩
  | .hbm, ⟨10, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S2x8x4096x4096 : S_.BroadcastsInDim S2x8x4096x4096 (![] : Fin 0 → Fin S2x8x4096x4096.rank)
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.Spec.lean ====
/-
  What both programs compute, as ONE function of the three argument arrays, index by index over the extended reals.

  For a batch `b`, a head `h`, a query row `q` and an output column `e`:

      out[b,h,q,e] = Σ_k  max( (Σ_d Q[b,h,q,d] · K[b,h,k,d]) · c , z ) · V[b,h,k,e]

  with `k` over the 4096 key rows and `d` over the 64 feature columns. `c` is the scale the kernel multiplies
  the scores by (the binary word of 2⁻⁶) and `z` the zero the rectifier compares against; both are kept as the
  words the programs spell. The reference DIVIDES the scores by 64 where the kernel multiplies by 2⁻⁶: on every
  extended real these are one operation (`scale_eq`), because the word of 2⁻⁶ denotes exactly the real 1/64.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The arrays' shape: batch, head, sequence position, feature. -/
abbrev SArr : Shape := ⟨4, ![2, 8, 4096, 64]⟩

/-- The kernel's scale, as the word it spells (2⁻⁶). -/
abbrev scale : EReal := Ideal.ofBits .f32 0x3C800000#32

/-- The rectifier's zero, as the word both programs spell. -/
abbrev zero : EReal := Ideal.ofBits .f32 0x00000000#32

/-- The score of query row `q` against key row `k` in batch `b`, head `h`: the dot product over the features. -/
def score (Q K : SArr.Idx → EReal) (b : Fin 2) (h : Fin 8) (q k : Fin 4096) : EReal :=
  ∑ d : Fin 64, Q (ix4 b h q d) * K (ix4 b h k d)

/-- The result array: rectified scaled scores times the values, summed over the key rows. -/
def attn (Q K V : SArr.Idx → EReal) : SArr.Idx → EReal := fun i =>
  ∑ k : Fin 4096, max (score Q K (i 0) (i 1) (i 2) k * scale) zero * V (ix4 (i 0) (i 1) k (i 3))

/-- The word `0x3C800000` denotes the real 1/64. -/
theorem scale_val : scale = ((1 / 64 : ℝ) : EReal) := by
  simp [scale, Ideal.ofBits, Ideal.ieee, -EReal.coe_mul]; norm_num

/-- The word `0x42800000`, the reference's divisor, denotes the real 64. -/
theorem sixtyfour_val : Ideal.ofBits .f32 0x42800000#32 = ((64 : ℝ) : EReal) := by
  simp [Ideal.ofBits, Ideal.ieee, -EReal.coe_mul]; norm_num

/-- Dividing by 64 is multiplying by 2⁻⁶, at every extended real (the infinities included). -/
theorem scale_eq (x : EReal) : Ideal.div x (Ideal.ofBits .f32 0x42800000#32) = x * scale := by
  rw [sixtyfour_val, scale_val, Ideal.div_coe (by norm_num : (64 : ℝ) ≠ 0)]

end Cert.Attn

end
-- ==== Proof.Payload.lean ====
/-
  The kernel body's arithmetic, read at one index of the block it stores.

  The body loads a [1,1,512,64] block of queries and the whole [1,1,4096,64] key and value slabs of one (batch, head),
  drops the two unit axes, and computes  relu((q · kᵀ) · c) · v  with two matrix products into zero accumulators.
  At the extended reals a change of float format is the identity and a matrix product into a zero accumulator is the
  plain sum of products over its contracted axis, so the stored block at (·,·,r,e) is

      Σ_k  max( (Σ_d q[r,d] · k[k,d]) · c , z ) · v[k,e].

  Each product is first read as a sum over its one contracted coordinate (the features for the scores, the key rows for
  the output), each shape cast as the operand at the index with the same row-major position.
-/
import proofs.«136876_j72378788872873_1_alg».proof.Proof.Gen.KernelIdeal.Skeleton
import proofs.«136876_j72378788872873_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.KernelIdeal.Facts₀ Cert.Attn
open Idealize.ShloMosaic Idealize.ShloMosaic.ValueIdx

/-! ## The scores' product: rows of the query block against rows of the key slab, contracted over the features -/

theorem lhs_scores_0 (j : S512x4096.Idx) (q : dot_S512x64_S4096x64_S512x4096_1_1_0_0_n_n.contr.Idx) :
    (dot_S512x64_S4096x64_S512x4096_1_1_0_0_n_n.lhsIdx j q 0).val = (j 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem lhs_scores_1 (j : S512x4096.Idx) (q : dot_S512x64_S4096x64_S512x4096_1_1_0_0_n_n.contr.Idx) :
    (dot_S512x64_S4096x64_S512x4096_1_1_0_0_n_n.lhsIdx j q 1).val = (q ⟨0, by decide⟩).val :=
  dot_S512x64_S4096x64_S512x4096_1_1_0_0_n_n.lhsIdx_val_of_single rfl j q
theorem rhs_scores_0 (j : S512x4096.Idx) (q : dot_S512x64_S4096x64_S512x4096_1_1_0_0_n_n.contr.Idx) :
    (dot_S512x64_S4096x64_S512x4096_1_1_0_0_n_n.rhsIdx j q 0).val = (j 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem rhs_scores_1 (j : S512x4096.Idx) (q : dot_S512x64_S4096x64_S512x4096_1_1_0_0_n_n.contr.Idx) :
    (dot_S512x64_S4096x64_S512x4096_1_1_0_0_n_n.rhsIdx j q 1).val = (q ⟨0, by decide⟩).val :=
  dot_S512x64_S4096x64_S512x4096_1_1_0_0_n_n.rhsIdx_val_of_single rfl j q

/-- The scores at (r, k): the dot product of query row `r` and key row `k` over the 64 features. -/
theorem scores_apply (L : FVec Ideal S512x64 .bf16) (R : FVec Ideal S4096x64 .bf16) (r : Fin 512) (k : Fin 4096) :
    matmul dot_S512x64_S4096x64_S512x4096_1_1_0_0_n_n none L R (constant S512x4096 .f32 0x00000000#32) (ix2 r k)
      = ∑ d : Fin 64, L (ix2 r d) * R (ix2 k d) := by
  simp only [matmul]
  rw [Ideal.matmul_constant_zero_apply, ← Equiv.sum_comp (contrEquiv1 dot_S512x64_S4096x64_S512x4096_1_1_0_0_n_n 64 rfl rfl).symm]
  refine Finset.sum_congr rfl fun d _ => ?_
  have hd := contrEquiv1_symm_val dot_S512x64_S4096x64_S512x4096_1_1_0_0_n_n 64 rfl rfl d
  have el : dot_S512x64_S4096x64_S512x4096_1_1_0_0_n_n.lhsIdx (ix2 r k) ((contrEquiv1 dot_S512x64_S4096x64_S512x4096_1_1_0_0_n_n 64 rfl rfl).symm d) = ix2 r d := funext fun a => Fin.ext (by
    match a with
    | ⟨0, _⟩ => exact lhs_scores_0 _ _
    | ⟨1, _⟩ => exact (lhs_scores_1 _ _).trans hd)
  have er : dot_S512x64_S4096x64_S512x4096_1_1_0_0_n_n.rhsIdx (ix2 r k) ((contrEquiv1 dot_S512x64_S4096x64_S512x4096_1_1_0_0_n_n 64 rfl rfl).symm d) = ix2 k d := funext fun a => Fin.ext (by
    match a with
    | ⟨0, _⟩ => exact rhs_scores_0 _ _
    | ⟨1, _⟩ => exact (rhs_scores_1 _ _).trans hd)
  rw [el, er]

/-! ## The output's product: rectified scores against the value slab, contracted over the key rows -/

theorem lhs_out_0 (j : S512x64.Idx) (q : dot_S512x4096_S4096x64_S512x64_1_0_0_1_n_n.contr.Idx) :
    (dot_S512x4096_S4096x64_S512x64_1_0_0_1_n_n.lhsIdx j q 0).val = (j 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_out_1 (j : S512x64.Idx) (q : dot_S512x4096_S4096x64_S512x64_1_0_0_1_n_n.contr.Idx) :
    (dot_S512x4096_S4096x64_S512x64_1_0_0_1_n_n.lhsIdx j q 1).val = (q ⟨0, by decide⟩).val :=
  dot_S512x4096_S4096x64_S512x64_1_0_0_1_n_n.lhsIdx_val_of_single rfl j q
theorem rhs_out_0 (j : S512x64.Idx) (q : dot_S512x4096_S4096x64_S512x64_1_0_0_1_n_n.contr.Idx) :
    (dot_S512x4096_S4096x64_S512x64_1_0_0_1_n_n.rhsIdx j q 0).val = (q ⟨0, by decide⟩).val :=
  dot_S512x4096_S4096x64_S512x64_1_0_0_1_n_n.rhsIdx_val_of_single rfl j q
theorem rhs_out_1 (j : S512x64.Idx) (q : dot_S512x4096_S4096x64_S512x64_1_0_0_1_n_n.contr.Idx) :
    (dot_S512x4096_S4096x64_S512x64_1_0_0_1_n_n.rhsIdx j q 1).val = (j 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The output at (r, e): the sum over the 4096 key rows of the left operand's row `r` against the value column `e`. -/
theorem out_apply (L : FVec Ideal S512x4096 .bf16) (R : FVec Ideal S4096x64 .bf16) (r : Fin 512) (e : Fin 64) :
    matmul dot_S512x4096_S4096x64_S512x64_1_0_0_1_n_n none L R (constant S512x64 .f32 0x00000000#32) (ix2 r e)
      = ∑ k : Fin 4096, L (ix2 r k) * R (ix2 k e) := by
  simp only [matmul]
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 r e) ((contrEquiv1 dot_S512x4096_S4096x64_S512x64_1_0_0_1_n_n 4096 rfl rfl).symm k) = ix2 r k := funext fun a => Fin.ext (by
    match a with
    | ⟨0, _⟩ => exact lhs_out_0 _ _
    | ⟨1, _⟩ => exact (lhs_out_1 _ _).trans hk)
  have er : dot_S512x4096_S4096x64_S512x64_1_0_0_1_n_n.rhsIdx (ix2 r e) ((contrEquiv1 dot_S512x4096_S4096x64_S512x64_1_0_0_1_n_n 4096 rfl rfl).symm k) = ix2 k e := funext fun a => Fin.ext (by
    match a with
    | ⟨0, _⟩ => exact (rhs_out_0 _ _).trans hk
    | ⟨1, _⟩ => exact rhs_out_1 _ _)
  rw [el, er]

/-! ## The shape casts: a block is [1,1,rows,64] of its array, and the body works on [rows,64] -/

/-- Dropping the query block's two unit axes: (r, d) reads (0, 0, r, d). -/
theorem dropUnits_q (x : Vec Ideal S1x1x512x64 .f32) (h : S1x1x512x64.ShapeCasts S512x64) (r : Fin 512) (d : Fin 64) :
    shapeCast S512x64 x h (ix2 r d) = x (ix4 0 0 r d) := by
  refine shapeCast_apply _ _ (ix2 r d) (ix4 0 0 r d) ?_
  rw [Shape.rowMajor_val_two, Shape.rowMajor_val_four]
  show ((0 * 1 + 0) * 512 + r.val) * 64 + d.val = r.val * 64 + d.val
  omega

/-- Dropping a key or value slab's two unit axes: (k, d) reads (0, 0, k, d). -/
theorem dropUnits_kv (x : Vec Ideal S1x1x4096x64 .f32) (h : S1x1x4096x64.ShapeCasts S4096x64) (k : Fin 4096) (d : Fin 64) :
    shapeCast S4096x64 x h (ix2 k d) = x (ix4 0 0 k d) := by
  refine shapeCast_apply _ _ (ix2 k d) (ix4 0 0 k d) ?_
  rw [Shape.rowMajor_val_two, Shape.rowMajor_val_four]
  show ((0 * 1 + 0) * 4096 + k.val) * 64 + d.val = k.val * 64 + d.val
  omega

/-- Putting the two unit axes back on the result: (a, b, r, e) reads (r, e). -/
theorem addUnits_out (y : FVec Ideal S512x64 .f32) (h : S512x64.ShapeCasts S1x1x512x64) (a b : Fin 1) (r : Fin 512) (e : Fin 64) :
    shapeCast S1x1x512x64 y h (ix4 a b r e) = y (ix2 r e) := by
  refine shapeCast_apply _ _ (ix4 a b r e) (ix2 r e) ?_
  rw [Shape.rowMajor_val_two, Shape.rowMajor_val_four]
  show r.val * 64 + e.val = ((a.val * 1 + b.val) * 512 + r.val) * 64 + e.val
  have ha := a.isLt; have hb := b.isLt
  omega

/-! ## The stored block at an index -/

/-- The block the body stores, at (a, b, r, e): over the key rows `k`, the rectified scaled score of query row `r`
    against key row `k`, times the value at (k, e). -/
theorem pay_at (x0 : Vec Ideal S1x1x512x64 .f32) (x1 x2 : Vec Ideal S1x1x4096x64 .f32) (a b : Fin 1) (r : Fin 512) (e : Fin 64) :
    k0_pay1 (F := Ideal) x0 x1 x2 (ix4 a b r e)
      = ∑ k : Fin 4096, max ((∑ d : Fin 64, x0 (ix4 0 0 r d) * x1 (ix4 0 0 k d)) * scale) zero * x2 (ix4 0 0 k e) := by
  unfold k0_pay1
  refine (addUnits_out _ _ a b r e).trans ?_
  refine (out_apply _ _ r e).trans ?_
  refine Finset.sum_congr rfl fun k _ => ?_
  rw [truncf_apply, truncf_apply, maximumf_apply, mulf_apply, broadcast_apply, broadcast_apply, scores_apply, dropUnits_kv]
  refine congrArg (fun s => max (s * scale) zero * x2 (ix4 0 0 k e)) ?_
  refine Finset.sum_congr rfl fun d _ => ?_
  rw [truncf_apply, truncf_apply, dropUnits_q, dropUnits_kv]

end Cert.KernelIdeal.Body

end
-- ==== Proof.KernelValue.lean ====
/-
  From blocks to the array: after the kernel's run the result array is the specification of the argument arrays.

  The grid has 2 · 8 · 8 points (batch, head, query tile). At a point the query window's block is rows
  [512·qi, 512·qi + 512) of Q[b,h], the key and value windows' blocks are all of K[b,h] and V[b,h], and the output
  window's block is rows [512·qi, 512·qi + 512) of out[b,h]. So the block the body stores, read at (·,·,r,e), is the
  specification at (b, h, 512·qi + r, e): its query row is that array row, its key and value rows are the slab's.
  The output blocks of the 128 points tile the array — row `q` of (b,h) lies in the block of the point (b, h, q / 512) —
  hence the array ends holding the specification everywhere.
-/
import proofs.«136876_j72378788872873_1_alg».proof.Proof.Gen.KernelIdeal.Value
import proofs.«136876_j72378788872873_1_alg».proof.Proof.Payload

set_option maxRecDepth 16384

noncomputable section

namespace Cert.KernelIdeal.Whole

open Cert.KernelIdeal Cert.KernelIdeal.Gen Cert.KernelIdeal.Body Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The specification at an index, spelt out. -/
theorem attn_apply (Q K V : SArr.Idx → EReal) (i : SArr.Idx) :
    attn Q K V i = ∑ k : Fin 4096, max ((∑ d : Fin 64, Q (ix4 (i 0) (i 1) (i 2) d) * K (ix4 (i 0) (i 1) k d)) * scale) zero
      * V (ix4 (i 0) (i 1) k (i 3)) := rfl

/-- The body's stored block at any index of the block. -/
theorem pay_at_idx (x0 : Vec Ideal S1x1x512x64 .f32) (x1 x2 : Vec Ideal S1x1x4096x64 .f32) (y : S1x1x512x64.Idx) :
    k0_pay1 (F := Ideal) x0 x1 x2 y
      = ∑ k : Fin 4096, max ((∑ d : Fin 64, x0 (ix4 0 0 (y 2) d) * x1 (ix4 0 0 k d)) * scale) zero * x2 (ix4 0 0 k (y 3)) := by
  obtain ⟨a, b, r, e, rfl⟩ : ∃ (a b : Fin 1) (r : Fin 512) (e : Fin 64), y = ix4 a b r e := ⟨y 0, y 1, y 2, y 3, eq_ix4 y⟩
  exact pay_at x0 x1 x2 a b r e

/-- The printed index maps over the grid: the query window moves with the output window on batch, head and tile; the
    key and value windows move with it on batch and head and sit at block 0 of the rows; nobody moves on the features;
    and the output's block indices stay inside 2 × 8 × 8. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) ≤ 1 ∧ win0_3.index t (1 : Fin 4) ≤ 7 ∧ win0_3.index t (2 : Fin 4) ≤ 7
    ∧ win0_3.index t (3 : Fin 4) = 0 :=
  (by decide +kernel : ∀ t : Fin grid0.N, _)

/-- Every (batch, head, tile) is some point's output block. -/
theorem idx_onto : ∀ (q0 : Fin 2) (q1 : Fin 8) (q2 : Fin 8), ∃ t : Fin cfg0.N, win0_3.index t = ![q0.val, q1.val, q2.val, 0] :=
  (by decide +kernel : ∀ (q0 : Fin 2) (q1 : Fin 8) (q2 : Fin 8), ∃ t : Fin grid0.N, win0_3.index t = ![q0.val, q1.val, q2.val, 0])

/-- WHAT POINT `t` WRITES BACK is block `t` of the specification of the argument arrays. -/
theorem flushed_eq (c : Dev nD) (t : Fin cfg0.N) :
    (dats m 0 c).flushed 3 t
      = ((cfg0.win 3).blk t).view.read (Elt Ideal) (attn (V m c main_arg0) (V m c main_arg1) (V m c main_arg2)) := by
  rw [Value.flushed3]
  unfold out0_3
  rw [View.canon_unit_zero zero_offsets]
  simp only [View.ld_unit_zero (S := S1x1x512x64) zero_offsets, View.ld_unit_zero (S := S1x1x4096x64) zero_offsets]
  obtain ⟨e00, e01, e02, e03, e10, e11, e12, e13, e20, e21, e22, e23, b0, b1, b2, b3⟩ := idx_facts t
  funext y
  show k0_pay1 (F := Ideal) (iblk m c 0 t) (iblk m c 1 t) (iblk m c 2 t) y
    = attn (V m c main_arg0) (V m c main_arg1) (V m c main_arg2) (((cfg0.win 3).blk t).view.emb y)
  refine (pay_at_idx (iblk m c 0 t) (iblk m c 1 t) (iblk m c 2 t) y).trans ?_
  rw [attn_apply]
  have hy0 : (y 0).val < 1 := (y 0).isLt
  have hy1 : (y 1).val < 1 := (y 1).isLt
  have hy2 : (y 2).val < 512 := (y 2).isLt
  have hy3 : (y 3).val < 64 := (y 3).isLt
  refine Finset.sum_congr rfl fun k _ => ?_
  -- the value block's row k, column (y 3), is the array's (b, h, k, column)
  have hv : iblk m c 2 t (ix4 0 0 k (y 3))
      = V m c main_arg2 (ix4 ((((cfg0.win 3).blk t).view.emb y) 0) ((((cfg0.win 3).blk t).view.emb y) 1) k ((((cfg0.win 3).blk t).view.emb y) 3)) := by
    show V m c main_arg2 (((cfg0.win 2).blk t).view.emb (ix4 0 0 k (y 3))) = _
    refine congrArg _ (funext fun a => Fin.ext ?_)
    match a with
    | ⟨0, _⟩ => show win0_2.index t (0 : Fin 4) * 1 + 1 * 0 = win0_3.index t (0 : Fin 4) * 1 + 1 * (y 0).val; omega
    | ⟨1, _⟩ => show win0_2.index t (1 : Fin 4) * 1 + 1 * 0 = win0_3.index t (1 : Fin 4) * 1 + 1 * (y 1).val; omega
    | ⟨2, _⟩ => show win0_2.index t (2 : Fin 4) * 4096 + 1 * k.val = k.val; omega
    | ⟨3, _⟩ => show win0_2.index t (3 : Fin 4) * 64 + 1 * (y 3).val = win0_3.index t (3 : Fin 4) * 64 + 1 * (y 3).val; omega
  -- the query block's row (y 2) is the array's row 512·tile + (y 2)
  have hq : ∀ d : Fin 64, iblk m c 0 t (ix4 0 0 (y 2) d)
      = V m c main_arg0 (ix4 ((((cfg0.win 3).blk t).view.emb y) 0) ((((cfg0.win 3).blk t).view.emb y) 1) ((((cfg0.win 3).blk t).view.emb y) 2) d) := by
    intro d
    show V m c main_arg0 (((cfg0.win 0).blk t).view.emb (ix4 0 0 (y 2) d)) = _
    refine congrArg _ (funext fun a => Fin.ext ?_)
    match a with
    | ⟨0, _⟩ => show win0_0.index t (0 : Fin 4) * 1 + 1 * 0 = win0_3.index t (0 : Fin 4) * 1 + 1 * (y 0).val; omega
    | ⟨1, _⟩ => show win0_0.index t (1 : Fin 4) * 1 + 1 * 0 = win0_3.index t (1 : Fin 4) * 1 + 1 * (y 1).val; omega
    | ⟨2, _⟩ => show win0_0.index t (2 : Fin 4) * 512 + 1 * (y 2).val = win0_3.index t (2 : Fin 4) * 512 + 1 * (y 2).val; omega
    | ⟨3, _⟩ => show win0_0.index t (3 : Fin 4) * 64 + 1 * d.val = d.val; omega
  -- the key block's row k is the array's (b, h, k, ·)
  have hk : ∀ d : Fin 64, iblk m c 1 t (ix4 0 0 k d)
      = V m c main_arg1 (ix4 ((((cfg0.win 3).blk t).view.emb y) 0) ((((cfg0.win 3).blk t).view.emb y) 1) k d) := by
    intro d
    show V m c main_arg1 (((cfg0.win 1).blk t).view.emb (ix4 0 0 k d)) = _
    refine congrArg _ (funext fun a => Fin.ext ?_)
    match a with
    | ⟨0, _⟩ => show win0_1.index t (0 : Fin 4) * 1 + 1 * 0 = win0_3.index t (0 : Fin 4) * 1 + 1 * (y 0).val; omega
    | ⟨1, _⟩ => show win0_1.index t (1 : Fin 4) * 1 + 1 * 0 = win0_3.index t (1 : Fin 4) * 1 + 1 * (y 1).val; omega
    | ⟨2, _⟩ => show win0_1.index t (2 : Fin 4) * 4096 + 1 * k.val = k.val; omega
    | ⟨3, _⟩ => show win0_1.index t (3 : Fin 4) * 64 + 1 * d.val = d.val; omega
  rw [hv]
  refine congrArg (fun s => max (s * scale) zero * _) ?_
  exact Finset.sum_congr rfl fun d _ => by rw [hq d, hk d]

/-- An index of the array is in point `t`'s output block iff each coordinate is in the block's range on its axis. -/
theorem mem_blk (t : Fin cfg0.N) (i : S2x8x4096x64.Idx) :
    i ∈ ((cfg0.win 3).blk t).view.set ↔ ∀ a : Fin 4, win0_3.index t a * S1x1x512x64.size a ≤ (i a).val
      ∧ (i a).val < win0_3.index t a * S1x1x512x64.size a + S1x1x512x64.size a := by
  show i ∈ ((View.whole main_v0).slice (win0_3.rect t)).set ↔ _
  rw [View.set_slice_whole, Rect.mem_set_unit]
  exact Iff.rfl

/-- The output blocks tile the array: (b, h, q, e) lies in the block of the point (b, h, q / 512). -/
theorem cover (i : S2x8x4096x64.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- THE ARRAY after the run is the specification of the argument arrays as launched. -/
theorem final (c : Dev nD) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run re-posted: the result array at the specification, the arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result is the specification.

  The reference forms the scores with a batched product over the features, divides them by 64, rectifies them against
  zero and multiplies by the values with a second batched product over the key rows. Read one operation at a time at
  an index (b,h,q,e), the first product's operands are Q at (b,h,q,d) and K at (b,h,k,d), the second's are the rectified
  score at (b,h,q,k) and V at (b,h,k,e); the only step that is not a re-spelling of indices is that dividing by 64 is
  multiplying by 2⁻⁶ on the extended reals.
-/
import proofs.«136876_j72378788872873_1_alg».proof.Proof.Gen.ReferenceIdeal.Read
import proofs.«136876_j72378788872873_1_alg».proof.Proof.Spec

noncomputable section

namespace Cert.ReferenceIdeal.RefValue

open Cert.ReferenceIdeal Cert.ReferenceIdeal.Gen Cert.ReferenceIdeal.Read Cert.Attn
open Idealize.ShloMosaic Idealize.ShloMosaic.ValueIdx

/-- The reference's result array, as a function of the three arguments, is `attn` of them. -/
theorem ref_eq (x0 x1 x2 : (⟨S2x8x4096x64, .f32⟩ : BufTy).Contents (Elt Ideal)) :
    val_main_v4 (F := Ideal) x0 x1 x2 = attn x0 x1 x2 := by
  funext i
  rw [val_main_v4_apply]
  unfold attn score
  refine Finset.sum_congr rfl fun k _ => ?_
  -- the operands' indices, coordinate by coordinate
  have eq : ∀ d : Fin 64, lidx_main_v0 (lidx_main_v4 i k) d = ix4 (i 0) (i 1) (i 2) d := fun d =>
    funext fun a => Fin.ext (by match a with | ⟨0, _⟩ => rfl | ⟨1, _⟩ => rfl | ⟨2, _⟩ => rfl | ⟨3, _⟩ => rfl)
  have ek : ∀ d : Fin 64, ridx_main_v0 (lidx_main_v4 i k) d = ix4 (i 0) (i 1) k d := fun d =>
    funext fun a => Fin.ext (by match a with | ⟨0, _⟩ => rfl | ⟨1, _⟩ => rfl | ⟨2, _⟩ => rfl | ⟨3, _⟩ => rfl)
  have ev : ridx_main_v4 i k = ix4 (i 0) (i 1) k (i 3) :=
    funext fun a => Fin.ext (by match a with | ⟨0, _⟩ => rfl | ⟨1, _⟩ => rfl | ⟨2, _⟩ => rfl | ⟨3, _⟩ => rfl)
  rw [val_main_v3_apply, val_main_v2_apply, val_main_v0_apply, val_main_v1_apply, val_main_cst_apply,
    val_main_call0_v0_apply, val_main_call0_cst_apply, ev]
  simp only [eq, ek]
  rw [Ideal.maximumf_def, Ideal.hostDivf_def, Ideal.ofBits_def, Ideal.ofBits_def, scale_eq]
  rfl

end Cert.ReferenceIdeal.RefValue

end
-- ==== Proof.lean ====
/-
  A tiled attention without softmax, out = relu(Q·Kᵀ / D) · V with D = 64, against its plain reference.

  The kernel walks a grid of (batch, head, query tile of 512 rows); at each point it multiplies the tile's queries with
  all 4096 keys of that (batch, head), scales the scores by 2⁻⁶, rectifies them, and multiplies with all 4096 values.
  The reference does the same with two batched products and DIVIDES the scores by 64.

  Over the extended reals both programs end with the result array at ONE function of the three argument arrays
  (Proof/Spec.lean, `attn`):

      out[b,h,q,e] = Σ_k max( (Σ_d Q[b,h,q,d]·K[b,h,k,d]) · 2⁻⁶ , 0 ) · V[b,h,k,e].

  * The reference is that function operation by operation; the one law used is x / 64 = x · 2⁻⁶ on every extended
    real, since the word of 2⁻⁶ denotes exactly 1/64 (Proof/RefValue.lean).
  * The kernel's stored block, read at an index, is that sum with the block's rows (Proof/Payload.lean): a change of
    float format is the identity and a matrix product into a zero accumulator is the sum over its contracted axis.
    A query tile's row r is array row 512·tile + r, the key and value blocks are the whole slabs, and the output
    tiles cover the array, so the array ends at the function everywhere (Proof/KernelValue.lean).
  No sum is re-ordered and nothing is cancelled, so finiteness of the inputs is not used.

  The three frame claims are the generated frames of the two kernel programs and the reference's generated run with
  its result dropped; the idealization rewrote nothing, so `preserves` has no conjunct.
-/
import proofs.«136876_j72378788872873_1_alg».proof.Defs
import proofs.«136876_j72378788872873_1_alg».proof.Proof.Gen.Kernel
import proofs.«136876_j72378788872873_1_alg».proof.Proof.Gen.Kernel.Skeleton
import proofs.«136876_j72378788872873_1_alg».proof.Proof.Gen.Kernel.Launch
import proofs.«136876_j72378788872873_1_alg».proof.Proof.Gen.Kernel.Points
import proofs.«136876_j72378788872873_1_alg».proof.Proof.Gen.Kernel.Frame
import proofs.«136876_j72378788872873_1_alg».proof.Proof.Gen.KernelIdeal
import proofs.«136876_j72378788872873_1_alg».proof.Proof.Gen.KernelIdeal.Skeleton
import proofs.«136876_j72378788872873_1_alg».proof.Proof.Gen.KernelIdeal.Launch
import proofs.«136876_j72378788872873_1_alg».proof.Proof.Gen.KernelIdeal.Points
import proofs.«136876_j72378788872873_1_alg».proof.Proof.Gen.KernelIdeal.Frame
import proofs.«136876_j72378788872873_1_alg».proof.Proof.Gen.ReferenceIdeal
import proofs.«136876_j72378788872873_1_alg».proof.Proof.Gen.Pre_finite_inputs
import proofs.«136876_j72378788872873_1_alg».proof.Proof.Gen.KernelIdeal.Value
import proofs.«136876_j72378788872873_1_alg».proof.Proof.Gen.ReferenceIdeal.Run
import proofs.«136876_j72378788872873_1_alg».proof.Proof.Gen.ReferenceIdeal.Read
import proofs.«136876_j72378788872873_1_alg».proof.Proof.Spec
import proofs.«136876_j72378788872873_1_alg».proof.Proof.Payload
import proofs.«136876_j72378788872873_1_alg».proof.Proof.KernelValue
import proofs.«136876_j72378788872873_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on Q, K and V both programs end with the result array at `attn Q K V`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
